-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S2x8x128 : Shape := ⟨3, ![2, 8, 128]⟩
abbrev S128x4096 : Shape := ⟨2, ![128, 4096]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 17
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  natLt_1_32 : 1 < 32
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S8192x4096, .i1⟩
  | .hbm, ⟨20, _⟩ => ⟨S8192x4096, .f32⟩
  | .hbm, ⟨21, _⟩ => ⟨S_, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192, .f32⟩
  | .hbm, ⟨35, _⟩ => ⟨S8192x4096, .i32⟩
  | .hbm, ⟨36, _⟩ => ⟨S_, .i32⟩
  | .hbm, ⟨37, _⟩ => ⟨S8192, .i32⟩
  | .hbm, ⟨38, _⟩ => ⟨S8192, .f32⟩
  | .hbm, ⟨39, _⟩ => ⟨S8192x4096, .i32⟩
  | .hbm, ⟨40, _⟩ => ⟨S_, .i32⟩
  | .hbm, ⟨41, _⟩ => ⟨S8192, .i32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S8192x4096_S8192_d1 : S8192x4096.ReducesTo [1] S8192
  natLt_1_32 : 1 < 32
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The loss both programs compute, as ONE function of the two argument arrays, over the extended reals.

  For logits x and labels y, both f32[8192, 4096]:
    loss x y = (Σ_{i,k} bce x[i,k] y[i,k]) / 2^25 + (Σ_i perRow x[i,·] y[i,·]) / 2^13
  where bce a b = max a 0 − a·b + log (1 + e^(−|a|)) is one element's cross-entropy-with-logits term, and, for one row,
  with P = {k : y[k] ≠ 0} the labelled lanes and N its complement,
    perRow = (Σ_{k∈N} e^{x[k]}) · (Σ_{k∈P} e^{−x[k]}) / max (|N|·|P|) 1   where |N|·|P| > 0, and 0 elsewhere.
  The two divisors and the 1 stay the f32 words the programs print: the same word on both sides is never evaluated.

  The kernel works on tiles of 128 rows: a tile's share of the first sum is tileBce, of the second tileCross; tileOf
  names tile n of an array, rows 128·n … 128·n + 127.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One element's term: max x 0 − x·y + log (1 + e^(−|x|)), with |x| = max x (−x). -/
def bce (x y : EReal) : EReal := (max x 0 - x * y) + Ideal.log1p (Ideal.exp (-(max x (-x))))

/-- The label mask: the one-bit word that is 1 exactly where the label is not zero. -/
def pos (y : EReal) : BitVec 1 := Ideal.cmp .one y 0

/-- Its complement: 1 exactly where the label is zero. -/
def neg (y : EReal) : BitVec 1 := ~~~ pos y

/-- A mask bit as a number, 0 or 1: the bit widened to a 32-bit word and that word read as a signed integer. -/
def ind (b : BitVec 1) : EReal := (((b.setWidth 32).toInt : ℝ) : EReal)

/-- Σ over the unlabelled lanes of a row of e^x. -/
def sNeg (xr yr : Fin 4096 → EReal) : EReal := ∑ k : Fin 4096, Scalar.select (neg (yr k)) (Ideal.exp (xr k)) 0

/-- Σ over the labelled lanes of a row of e^(−x). -/
def sPos (xr yr : Fin 4096 → EReal) : EReal := ∑ k : Fin 4096, Scalar.select (pos (yr k)) (Ideal.exp (-(xr k))) 0

/-- The number of unlabelled lanes of a row, as a sum of indicators. -/
def n0 (yr : Fin 4096 → EReal) : EReal := ∑ k : Fin 4096, ind (neg (yr k))

/-- The number of labelled lanes of a row. -/
def n1 (yr : Fin 4096 → EReal) : EReal := ∑ k : Fin 4096, ind (pos (yr k))

/-- The f32 word of 1.0, unevaluated. -/
def one : EReal := Ideal.ofBits .f32 0x3F800000#32

/-- One row's cross-label term. -/
def perRow (xr yr : Fin 4096 → EReal) : EReal :=
  Scalar.select (Ideal.cmp .ogt (n0 yr * n1 yr) 0) (Ideal.div (sNeg xr yr * sPos xr yr) (max (n0 yr * n1 yr) one)) 0

/-- An argument array, and a tile of 128 of its rows. -/
abbrev Arr : Type := (⟨2, ![8192, 4096]⟩ : Shape).Idx → EReal
abbrev Tile : Type := (⟨2, ![128, 4096]⟩ : Shape).Idx → EReal

/-- Row i of an array. -/
def rowOf (x : Arr) (i : Fin 8192) : Fin 4096 → EReal := fun k => x (ix2 i k)

/-- The sum of every element's term. -/
def bceTotal (x y : Arr) : EReal := ∑ i : Fin 8192, ∑ k : Fin 4096, bce (x (ix2 i k)) (y (ix2 i k))

/-- The sum of every row's cross-label term. -/
def crossTotal (x y : Arr) : EReal := ∑ i : Fin 8192, perRow (rowOf x i) (rowOf y i)

/-- The f32 words of 2^25 = 8192·4096 and of 2^13 = 8192, unevaluated. -/
def c25 : EReal := Ideal.ofBits .f32 0x4C000000#32
def c13 : EReal := Ideal.ofBits .f32 0x46000000#32

/-- THE LOSS: the mean element term plus the mean row term. -/
def loss (x y : Arr) : EReal := Ideal.div (bceTotal x y) c25 + Ideal.div (crossTotal x y) c13

/-- A tile's share of the element sum. -/
def tileBce (x y : Tile) : EReal := ∑ r : Fin 128, ∑ k : Fin 4096, bce (x (ix2 r k)) (y (ix2 r k))

/-- A tile's share of the row sum. -/
def tileCross (x y : Tile) : EReal := ∑ r : Fin 128, perRow (fun k => x (ix2 r k)) (fun k => y (ix2 r k))

/-- Tile n of an array: rows 128·n … 128·n + 127 (n < 64). -/
def tileOf (x : Arr) (n : ℕ) (h : n < 64) : Tile :=
  fun j => x (ix2 ⟨128 * n + (j 0).val, by have h0 : (j 0).val < 128 := (j 0).isLt; show _ < 8192; omega⟩ (j 1))

/-- Point n's addend to the element sum: tile n's share; zero past the 64 tiles, so that a sum over points needs no bound. -/
def tileBceAt (x y : Arr) (n : ℕ) : EReal := if h : n < 64 then tileBce (tileOf x n h) (tileOf y n h) else 0

/-- Point n's addend to the row sum. -/
def tileCrossAt (x y : Arr) (n : ℕ) : EReal := if h : n < 64 then tileCross (tileOf x n h) (tileOf y n h) else 0

end Cert.Spec

end
-- ==== Proof.RefValue.lean ====
/-
  The reference's result, read one operation at a time, is the loss of its two arguments.
-/
import proofs.«159587_j28922309771824_1_alg».proof.Proof.Spec
import proofs.«159587_j28922309771824_1_alg».proof.Proof.RefReadP
import Idealize.ShloMosaic.Lib.IndicatorCount
import Idealize.ShloMosaic.Lib.IdealHost

noncomputable section

open Idealize.ShloMosaic Idealize.ShloMosaic.TcCoe Idealize.SL.Sem Idealize.ShloMosaic.ValueIdx

namespace Cert.RefValue

open Cert.ReferenceIdeal Cert.ReferenceIdeal.Gen Cert.ReferenceIdeal.ReadP

/-- The array type of the two arguments. -/
private abbrev A : Type := (⟨S8192x4096, .f32⟩ : BufTy).Contents (Elt Ideal)

/-- One element of the reference's elementwise stage is the element's cross-entropy term: the reference writes
    −|x| as the negation of the absolute value, which at the extended reals is −(max x (−x)). -/
private theorem v8_at (x0 x1 : A) (j : S8192x4096.Idx) :
    val_main_v8 (F := Ideal) x0 x1 j = Spec.bce (x0 j) (x1 j) := by
  rw [val_main_v8_apply, val_main_v3_apply, val_main_v1_apply, val_main_v0_apply, val_main_cst_apply,
    val_main_v2_apply, val_main_v7_apply, val_main_v6_apply, val_main_v5_apply, val_main_v4_apply]
  show (max (x0 j) (Ideal.ofBits .f32 0x00000000#32) - x0 j * x1 j)
      + Ideal.log1p (Ideal.exp (-(max (x0 j) (-(x0 j))))) = _
  rw [Ideal.ofBits_zero_f32]; rfl

/-- The label mask: "not equal to zero", ordered or unordered, is one comparison of extended reals. -/
private theorem v12_at (x1 : A) (j : S8192x4096.Idx) :
    val_main_v12 (F := Ideal) x1 j = Spec.pos (x1 j) := by
  rw [val_main_v12_apply, val_main_v11_apply, val_main_cst_2_apply]
  show Ideal.cmp .une (x1 j) (Ideal.ofBits .f32 0x00000000#32) = Ideal.cmp .one (x1 j) 0
  rw [Ideal.ofBits_zero_f32]; rfl

private theorem v13_at (x1 : A) (j : S8192x4096.Idx) :
    val_main_v13 (F := Ideal) x1 j = Spec.neg (x1 j) := by
  rw [val_main_v13_apply, v12_at]; rfl

/-- e^x on the unlabelled lanes, zero on the others. -/
private theorem v15_at (x0 x1 : A) (j : S8192x4096.Idx) :
    val_main_v15 (F := Ideal) x0 x1 j = Scalar.select (Spec.neg (x1 j)) (Ideal.exp (x0 j)) 0 := by
  rw [val_main_v15_apply, v13_at, val_main_v14_apply, val_main_call0_v1_apply, val_main_call0_v0_apply,
    val_main_cst_3_apply]
  show Scalar.select _ (Ideal.exp (x0 j)) (Ideal.ofBits .f32 0x00000000#32) = _
  rw [Ideal.ofBits_zero_f32]

/-- e^(−x) on the labelled lanes, zero on the others. -/
private theorem v19_at (x0 x1 : A) (j : S8192x4096.Idx) :
    val_main_v19 (F := Ideal) x0 x1 j = Scalar.select (Spec.pos (x1 j)) (Ideal.exp (-(x0 j))) 0 := by
  rw [val_main_v19_apply, v12_at, val_main_v18_apply, val_main_v17_apply, val_main_call1_v1_apply,
    val_main_call1_v0_apply, val_main_cst_5_apply]
  show Scalar.select _ (Ideal.exp (-(x0 j))) (Ideal.ofBits .f32 0x00000000#32) = _
  rw [Ideal.ofBits_zero_f32]

/-- The source index of a row reduction: row i's lane k. -/
private theorem idx16 (i : S8192.Idx) (k : Fin 4096) : idx_main_v16 i k = ix2 (i 0) k := by
  funext a; match a with | ⟨0, _⟩ => rfl | ⟨1, _⟩ => rfl

private theorem idx20 (i : S8192.Idx) (k : Fin 4096) : idx_main_v20 i k = ix2 (i 0) k := by
  funext a; match a with | ⟨0, _⟩ => rfl | ⟨1, _⟩ => rfl

private theorem v16_at (x0 x1 : A) (i : S8192.Idx) :
    val_main_v16 (F := Ideal) x0 x1 i = Spec.sNeg (Spec.rowOf x0 (i 0)) (Spec.rowOf x1 (i 0)) := by
  rw [val_main_v16_apply, val_main_cst_4_apply]
  show Ideal.ofBits .f32 0x00000000#32 + _ = _
  rw [Ideal.ofBits_zero_f32, zero_add]
  refine Finset.sum_congr rfl fun k _ => ?_
  rw [v15_at, idx16]; rfl

private theorem v20_at (x0 x1 : A) (i : S8192.Idx) :
    val_main_v20 (F := Ideal) x0 x1 i = Spec.sPos (Spec.rowOf x0 (i 0)) (Spec.rowOf x1 (i 0)) := by
  rw [val_main_v20_apply, val_main_cst_6_apply]
  show Ideal.ofBits .f32 0x00000000#32 + _ = _
  rw [Ideal.ofBits_zero_f32, zero_add]
  refine Finset.sum_congr rfl fun k _ => ?_
  rw [v19_at, idx20]; rfl

/-- A mask bit as a number: 1 on the bit 1, 0 on the bit 0. -/
private theorem ind_one : Spec.ind 1#1 = 1 := by
  have e : ((1#1 : BitVec 1).setWidth 32).toInt = 1 := by decide
  unfold Spec.ind; rw [e, Int.cast_one, EReal.coe_one]

private theorem ind_zero : Spec.ind 0#1 = 0 := by
  have e : ((0#1 : BitVec 1).setWidth 32).toInt = 0 := by decide
  unfold Spec.ind; rw [e, Int.cast_zero, EReal.coe_zero]

/-- A sum of indicators over a finite set is the number of its members whose bit is 1. -/
private theorem sum_ind_eq_card {ι : Type} (p : ι → BitVec 1) (S : Finset ι) :
    ∑ k ∈ S, Spec.ind (p k) = (((S.filter fun k => p k = 1#1).card : ℝ) : EReal) := by
  classical
  induction S using Finset.induction_on with
  | empty => simp
  | insert a S ha ih =>
    rw [Finset.sum_insert ha, ih, Finset.filter_insert]
    by_cases h : p a = 1#1
    · rw [if_pos h, Finset.card_insert_of_notMem (fun hm => ha (Finset.mem_filter.1 hm).1), h, ind_one,
        Nat.cast_succ, EReal.coe_add, EReal.coe_one, add_comm]
    · rw [if_neg h, eq_zero_of_ne_one h, ind_zero, zero_add]

/-- A 32-bit word of a number up to 4096 is that number, read as a signed integer (the sign bit is clear). -/
private theorem toInt_ofNat_le (n : ℕ) (h : n ≤ 4096) : (BitVec.ofNat 32 n).toInt = (n : ℤ) := by
  have e : (BitVec.ofNat 32 n).toNat = n := by rw [BitVec.toNat_ofNat]; omega
  rw [BitVec.toInt_eq_toNat_of_lt (by rw [e]; omega), e]

/-- Dropping the lane axis of the array leaves its rows. -/
private theorem red_d1 : S8192x4096.Reduces [1] S8192 := by decide

/-- Result index i with lane k put back on the dropped axis is row i's lane k. -/
private theorem lift_d1 (i : S8192.Idx) (k : Fin (S8192x4096.size 1)) : red_d1.lift i k = ix2 (i 0) k := by
  funext a; apply Fin.ext; match a with | ⟨0, _⟩ => rfl | ⟨1, _⟩ => rfl

/-- One row's integer count of a mask, converted to a float, is the sum of the mask's indicators along the row:
    the integer sum of the widened bits is the word of the number of ones, at most 4096, so the conversion reads
    that number. -/
private theorem count_row (m : S8192x4096.Idx → BitVec 1) (init : S_.Idx → BitVec 32) (h0 : ∀ j, init j = 0#32)
    (i : S8192.Idx) :
    (((Host.reduce IntOp.addi (fun j => (m j).setWidth 32) init reducesTo_S8192x4096_S8192_d1 h_S_ i).toInt : ℝ) : EReal)
      = ∑ k : Fin 4096, Spec.ind (m (ix2 (i 0) k)) := by
  rw [Host.reduce_eq_fold_single IntOp.addi _ init reducesTo_S8192x4096_S8192_d1 red_d1 h_S_ i, h0]
  show (((Finset.univ.fold IntOp.addi (0#32) (fun k => (m (red_d1.lift i k)).setWidth 32)).toInt : ℝ) : EReal) = _
  rw [IndicatorCount.fold_addi_setWidth_eq_card, toInt_ofNat_le _ ?_, Int.cast_natCast, sum_ind_eq_card]
  · simp only [lift_d1]; rfl
  · refine (Finset.card_filter_le _ _).trans ?_
    rw [Finset.card_univ, Fintype.card_fin]; exact le_of_eq rfl

private theorem v23_at (x1 : A) (i : S8192.Idx) :
    val_main_v23 (F := Ideal) x1 i = Spec.n0 (Spec.rowOf x1 (i 0)) := by
  rw [val_main_v23_apply]
  show (((val_main_v22 (F := Ideal) x1 i).toInt : ℝ) : EReal) = _
  unfold val_main_v22
  refine (count_row (fun j => val_main_v13 (F := Ideal) x1 j) _ (fun _ => rfl) i).trans ?_
  refine Finset.sum_congr rfl fun k _ => ?_
  rw [v13_at]; rfl

private theorem v26_at (x1 : A) (i : S8192.Idx) :
    val_main_v26 (F := Ideal) x1 i = Spec.n1 (Spec.rowOf x1 (i 0)) := by
  rw [val_main_v26_apply]
  show (((val_main_v25 (F := Ideal) x1 i).toInt : ℝ) : EReal) = _
  unfold val_main_v25
  refine (count_row (fun j => val_main_v12 (F := Ideal) x1 j) _ (fun _ => rfl) i).trans ?_
  refine Finset.sum_congr rfl fun k _ => ?_
  rw [v12_at]; rfl

/-- One row's cross-label term. -/
private theorem v34_at (x0 x1 : A) (i : S8192.Idx) :
    val_main_v34 (F := Ideal) x0 x1 i = Spec.perRow (Spec.rowOf x0 (i 0)) (Spec.rowOf x1 (i 0)) := by
  rw [val_main_v34_apply, val_main_v29_apply, val_main_v27_apply, val_main_v28_apply, val_main_cst_8_apply,
    val_main_v33_apply, val_main_v30_apply, val_main_v32_apply, val_main_v27_apply, val_main_v31_apply,
    val_main_cst_9_apply, val_main_call2_v1_apply, val_main_call2_v0_apply, val_main_cst_10_apply,
    v16_at, v20_at, v23_at, v26_at]
  show Scalar.select (Ideal.cmp .ogt (_ * _) (Ideal.ofBits .f32 0x00000000#32))
      (Ideal.div (_ * _) (max (_ * _) (Ideal.ofBits .f32 0x3F800000#32))) (Ideal.ofBits .f32 0x00000000#32) = _
  rw [Ideal.ofBits_zero_f32]; rfl

/-- A rank-1 index is its one coordinate. -/
private def rowEquiv : S8192.Idx ≃ Fin 8192 where
  toFun j := j 0
  invFun a := ix1 a
  left_inv j := (eq_ix1 j).symm
  right_inv _ := rfl

/-- The sum of the element terms over both axes. -/
private theorem v9_at (x0 x1 : A) (i : S_.Idx) :
    val_main_v9 (F := Ideal) x0 x1 i = Spec.bceTotal x0 x1 := by
  rw [val_main_v9_apply, val_main_cst_0_apply]
  show Ideal.ofBits .f32 0x00000000#32 + _ = _
  rw [Ideal.ofBits_zero_f32, zero_add, sum_idx2]
  refine Finset.sum_congr rfl fun a _ => Finset.sum_congr rfl fun b _ => ?_
  rw [v8_at]

/-- The sum of the row terms. -/
private theorem v35_at (x0 x1 : A) (i : S_.Idx) :
    val_main_v35 (F := Ideal) x0 x1 i = Spec.crossTotal x0 x1 := by
  rw [val_main_v35_apply, val_main_cst_11_apply]
  show Ideal.ofBits .f32 0x00000000#32 + _ = _
  rw [Ideal.ofBits_zero_f32, zero_add]
  refine Fintype.sum_equiv rowEquiv _ _ fun j => ?_
  rw [v34_at]; rfl

/-- The reference's result is the loss of its two arguments. -/
theorem ref_eq (x0 x1 : (⟨S8192x4096, .f32⟩ : BufTy).Contents (Elt Ideal)) :
    val_main_v37 (F := Ideal) x0 x1 = fun _ => Spec.loss x0 x1 := by
  funext i
  rw [val_main_v37_apply, val_main_v10_apply, val_main_v36_apply, v9_at, v35_at, val_main_cst_1_apply,
    val_main_cst_12_apply]
  rfl

end Cert.RefValue

end
-- ==== Proof.KSteps.lean ====
/-
  What one grid point makes of each output's resident (1, 8, 128) block, as terms over the body's payloads: the first
  output's block xo becomes xo + (the tile's element sum, broadcast), the second's xo + (the tile's row sum, broadcast).
-/
import proofs.«159587_j28922309771824_1_alg».proof.Proof.Gen.KernelIdeal.Skeleton
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable {F : FTy → Type} [FloatOps F]

/-- The first output's block after a point that found it at xo, the point's input tiles being x0 (logits) and x1 (labels). -/
abbrev step2 (x0 x1 : Vec F S128x4096 .f32) (xo : Vec F S1x8x128 .f32) : Vec F S1x8x128 .f32 :=
  k0_pay1 (k0_pay5 x0 x1) xo

/-- The second output's block after such a point. -/
abbrev step3 (x0 x1 : Vec F S128x4096 .f32) (xo : Vec F S1x8x128 .f32) : Vec F S1x8x128 .f32 :=
  k0_pay2 (k0_pay8 x0 x1) (k0_pay9 x0 x1) (k0_pay10 x1) (k0_pay11 x1) xo

end Cert.KernelIdeal.Val

end
-- ==== Proof.KPieces.lean ====
/-
  What each control case of the body leaves in the two outputs' staging buffers, as the step terms: at a reset point
  (case A) the step over the zero block the reset stores, at every other point (case B) the step over what the point
  before left.
-/
import proofs.«159587_j28922309771824_1_alg».proof.Proof.Gen.KernelIdeal.Frame
import proofs.«159587_j28922309771824_1_alg».proof.Proof.KSteps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable {F : FTy → Type} [FloatOps F]

/-- The all-zero offset of a rank-3 block, and of a rank-2 tile, as the constant function: every load and store of the
    body starts at it and spans the whole buffer. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- CASE A, first output. The reset stores the zero block over the whole buffer; the update then loads the whole buffer
    back, so it reads that zero block, and stores, again over the whole buffer, the step of the two input tiles over
    what it loaded. The last store covers, so the buffer ends at its payload: the step over the zero block. The input
    tiles are loaded whole, so the payload is a term over x0 and x1 themselves. -/
theorem out_A_2 (c : Dev nD) (i : grid0.Coords) (a2 : Memref sig .tc .vmem S128x4096 .f32) (h2 : a2.IsWhole)
    (a3 : Memref sig .tc .vmem S128x4096 .f32) (h3 : a3.IsWhole) (a4 : Memref sig .tc .vmem S1x8x128 .f32) (h4 : a4.IsWhole)
    (a5 : Memref sig .tc .vmem S1x8x128 .f32) (h5 : a5.IsWhole) (hc : cond0_0 i) (x0 x1 : Vec F S128x4096 .f32) :
    out0_A_2 c i a2 h2 a3 h3 a4 h4 a5 h5 hc x0 x1 = step2 x0 x1 (k0_pay3 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S128x4096) hz2]

/-- CASE A, second output: the same shape of run, with the second output's zero block and its step. -/
theorem out_A_3 (c : Dev nD) (i : grid0.Coords) (a2 : Memref sig .tc .vmem S128x4096 .f32) (h2 : a2.IsWhole)
    (a3 : Memref sig .tc .vmem S128x4096 .f32) (h3 : a3.IsWhole) (a4 : Memref sig .tc .vmem S1x8x128 .f32) (h4 : a4.IsWhole)
    (a5 : Memref sig .tc .vmem S1x8x128 .f32) (h5 : a5.IsWhole) (hc : cond0_0 i) (x0 x1 : Vec F S128x4096 .f32) :
    out0_A_3 c i a2 h2 a3 h3 a4 h4 a5 h5 hc x0 x1 = step3 x0 x1 (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S128x4096) hz2]

/-- CASE B, first output. No reset: the one store, over the whole buffer, is the step of the two input tiles over the
    whole buffer as the point found it, xo2. -/
theorem out_B_2 (c : Dev nD) (i : grid0.Coords) (a2 : Memref sig .tc .vmem S128x4096 .f32) (h2 : a2.IsWhole)
    (a3 : Memref sig .tc .vmem S128x4096 .f32) (h3 : a3.IsWhole) (a4 : Memref sig .tc .vmem S1x8x128 .f32) (h4 : a4.IsWhole)
    (a5 : Memref sig .tc .vmem S1x8x128 .f32) (h5 : a5.IsWhole) (hc : ¬cond0_0 i) (x0 x1 : Vec F S128x4096 .f32) (xo2 xo3 : Vec F S1x8x128 .f32) :
    out0_B_2 c i a2 h2 a3 h3 a4 h4 a5 h5 hc x0 x1 xo2 xo3 = step2 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread,
    View.ld_unit_zero (S := S128x4096) hz2, View.ld_unit_zero (S := S1x8x128) hz3]

/-- CASE B, second output: the step over the running contents xo3. -/
theorem out_B_3 (c : Dev nD) (i : grid0.Coords) (a2 : Memref sig .tc .vmem S128x4096 .f32) (h2 : a2.IsWhole)
    (a3 : Memref sig .tc .vmem S128x4096 .f32) (h3 : a3.IsWhole) (a4 : Memref sig .tc .vmem S1x8x128 .f32) (h4 : a4.IsWhole)
    (a5 : Memref sig .tc .vmem S1x8x128 .f32) (h5 : a5.IsWhole) (hc : ¬cond0_0 i) (x0 x1 : Vec F S128x4096 .f32) (xo2 xo3 : Vec F S1x8x128 .f32) :
    out0_B_3 c i a2 h2 a3 h3 a4 h4 a5 h5 hc x0 x1 xo2 xo3 = step3 x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread,
    View.ld_unit_zero (S := S128x4096) hz2, View.ld_unit_zero (S := S1x8x128) hz3]

end Cert.KernelIdeal.Val

end
-- ==== Proof.KPayload.lean ====
/-
  The step terms read at an index, over the extended reals: a step adds ONE number to every entry of the block, the
  tile's element sum (first output) or the tile's row sum (second output); the reset's blocks are zero.

  The road: a lane sum of a 128 × 4096 block read at row r is the sum over the row's 4096 lanes; the body's two-stage
  total of 128 numbers (one row of 128, summed along it, read at its one entry) is their sum; every other operation is
  pointwise, so each payload read at an entry is the loss's own term there once the word 0x00000000 is read as 0 and
  0 − x as −x; and the last two casts around the addition leave entry j of the block at xo j + s.
-/
import proofs.«159587_j28922309771824_1_alg».proof.Proof.Spec
import proofs.«159587_j28922309771824_1_alg».proof.Proof.KSteps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

namespace Payload

/-! ## The two sums -/

/-- A lane sum of a 128 × 4096 block, read at row r: the sum over the row's 4096 lanes. -/
theorem rowSum_apply (v : FVec Ideal S128x4096 .f32) (hacc : (0x00000000#32 : BitVec 32) = 0x00000000#32) (r : Fin 128) :
    multiReduction (F := Ideal) .add [1] S128 v 0x00000000#32 reduces_S128x4096_S128 (.inl rfl) hacc (ix1 r)
      = ∑ k : Fin 4096, v (ix2 r k) := by
  refine (Ideal.multiReduction_add_single v 0x00000000#32 reduces_S128x4096_S128 (.inl rfl) hacc (ix1 r)).trans ?_
  refine Finset.sum_congr rfl fun k _ => congrArg v ?_
  funext a
  match a with
  | ⟨0, _⟩ => rfl
  | ⟨1, _⟩ => rfl

/-- The two-stage total of a vector of 128 numbers (cast to one row, summed along it, cast to 1 × 1 and read at its
    one entry) is the sum of the 128. -/
theorem total_apply (v : FVec Ideal S128 .f32) (hacc : (0x00000000#32 : BitVec 32) = 0x00000000#32) :
    extractAt ![0, 0] (shapeCast S1x1 (multiReduction (F := Ideal) .add [1] S1 (shapeCast S1x128 v shapeCasts_S128_S1x128)
        0x00000000#32 reduces_S1x128_S1 (.inl rfl) hacc) shapeCasts_S1_S1x1) inpos_S1x1_p0_0
      = ∑ r : Fin 128, v (ix1 r) := by
  have hidx : (fun a => ⟨(![0, 0] : Fin 2 → Nat) a, inpos_S1x1_p0_0 a⟩ : S1x1.Idx) = ix2 (0 : Fin 1) (0 : Fin 1) := by
    funext a
    match a with
    | ⟨0, _⟩ => rfl
    | ⟨1, _⟩ => rfl
  show shapeCast S1x1 _ shapeCasts_S1_S1x1 (fun a => ⟨(![0, 0] : Fin 2 → Nat) a, inpos_S1x1_p0_0 a⟩) = _
  rw [hidx]
  refine (shapeCast_a_1a_apply _ shapeCasts_S1_S1x1 (0 : Fin 1) (0 : Fin 1)).trans ?_
  refine (Ideal.multiReduction_add_single _ 0x00000000#32 reduces_S1x128_S1 (.inl rfl) hacc (ix1 (0 : Fin 1))).trans ?_
  refine Finset.sum_congr rfl fun r _ => ?_
  have hl : (reduces_S1x128_S1.lift (ix1 (0 : Fin 1)) r : S1x128.Idx) = ix2 (0 : Fin 1) r := by
    funext a
    match a with
    | ⟨0, _⟩ => rfl
    | ⟨1, _⟩ => rfl
  rw [hl]
  exact shapeCast_a_1a_apply v shapeCasts_S128_S1x128 (0 : Fin 1) r

/-! ## One number added to every entry of a block -/

/-- Adding one number s to every entry of a (1, 8, 128) block, through the block's (8, 128) view: entry j becomes
    xo j + s. -/
theorem bump_apply (s : EReal) (xo : Vec Ideal S1x8x128 .f32) (j : S1x8x128.Idx) :
    shapeCast S1x8x128 (addf (F := Ideal) (φ := .f32) (shapeCast S8x128 xo shapeCasts_S1x8x128_S8x128) (broadcast S8x128 s))
      shapeCasts_S8x128_S1x8x128 j = xo j + s := by
  obtain ⟨a, b, c, rfl⟩ : ∃ (a : Fin 1) (b : Fin 8) (c : Fin 128), j = ix3 a b c := ⟨j 0, j 1, j 2, eq_ix3 j⟩
  obtain rfl : a = 0 := Subsingleton.elim _ _
  refine (shapeCast_ab_1ab_apply _ shapeCasts_S8x128_S1x8x128 (0 : Fin 1) b c).trans ?_
  show shapeCast S8x128 xo shapeCasts_S1x8x128_S8x128 (ix2 b c) + s = _
  exact congrArg (· + s) (shapeCast_1ab_ab_apply xo shapeCasts_S1x8x128_S8x128 b c)

/-! ## The element sum -/

/-- The tile's element sum: each entry's term is max x 0 − x·y + log (1 + e^(0 − |x|)), and 0 − |x| = −|x|. -/
theorem pay5_eq (x0 x1 : Vec Ideal S128x4096 .f32) : k0_pay5 x0 x1 = Spec.tileBce x0 x1 := by
  unfold k0_pay5
  refine (total_apply _ rfl).trans ?_
  refine Finset.sum_congr rfl fun r _ => (rowSum_apply _ rfl r).trans (Finset.sum_congr rfl fun k _ => ?_)
  show (max (x0 (ix2 r k)) (Ideal.ofBits .f32 0x00000000#32) - x0 (ix2 r k) * x1 (ix2 r k))
      + Ideal.log1p (Ideal.exp (Ideal.ofBits .f32 0x00000000#32 - max (x0 (ix2 r k)) (-(x0 (ix2 r k))))) = _
  rw [Ideal.ofBits_zero_f32, zero_sub]
  rfl

/-! ## The masks, and the four row quantities -/

/-- Flipping a one-bit word by exclusive-or with 1 is its complement. -/
theorem xor_one_eq_not (b : BitVec 1) : b ^^^ 1#1 = ~~~ b := by
  revert b; decide

/-- The label mask at an entry: 1 exactly where the label is not zero. -/
theorem pay6_apply (x1 : Vec Ideal S128x4096 .f32) (r : Fin 128) (k : Fin 4096) :
    k0_pay6 x1 (ix2 r k) = Spec.pos (x1 (ix2 r k)) := by
  show Ideal.cmp .one (x1 (ix2 r k)) (Ideal.ofBits .f32 0x00000000#32) = _
  rw [Ideal.ofBits_zero_f32]
  rfl

/-- Its complement at an entry. -/
theorem pay7_apply (x1 : Vec Ideal S128x4096 .f32) (r : Fin 128) (k : Fin 4096) :
    k0_pay7 x1 (ix2 r k) = Spec.neg (x1 (ix2 r k)) := by
  show k0_pay6 x1 (ix2 r k) ^^^ 1#1 = _
  rw [xor_one_eq_not, pay6_apply]
  rfl

/-- Row r's sum of e^x over the unlabelled lanes. -/
theorem pay8_apply (x0 x1 : Vec Ideal S128x4096 .f32) (r : Fin 128) :
    k0_pay8 x0 x1 (ix1 r) = Spec.sNeg (fun k => x0 (ix2 r k)) (fun k => x1 (ix2 r k)) := by
  unfold k0_pay8
  refine (rowSum_apply _ rfl r).trans (Finset.sum_congr rfl fun k _ => ?_)
  show Scalar.select (k0_pay7 x1 (ix2 r k)) (Ideal.exp (x0 (ix2 r k))) (Ideal.ofBits .f32 0x00000000#32) = _
  rw [pay7_apply, Ideal.ofBits_zero_f32]

/-- Row r's sum of e^(−x) over the labelled lanes (−x spelt 0 − x). -/
theorem pay9_apply (x0 x1 : Vec Ideal S128x4096 .f32) (r : Fin 128) :
    k0_pay9 x0 x1 (ix1 r) = Spec.sPos (fun k => x0 (ix2 r k)) (fun k => x1 (ix2 r k)) := by
  unfold k0_pay9
  refine (rowSum_apply _ rfl r).trans (Finset.sum_congr rfl fun k _ => ?_)
  show Scalar.select (k0_pay6 x1 (ix2 r k)) (Ideal.exp (Ideal.ofBits .f32 0x00000000#32 - x0 (ix2 r k)))
      (Ideal.ofBits .f32 0x00000000#32) = _
  rw [pay6_apply, Ideal.ofBits_zero_f32, zero_sub]

/-- Row r's count of unlabelled lanes: the sum of the complement mask's bits, each widened to 32 bits and read as a
    signed integer. -/
theorem pay10_apply (x1 : Vec Ideal S128x4096 .f32) (r : Fin 128) :
    k0_pay10 x1 (ix1 r) = Spec.n0 (fun k => x1 (ix2 r k)) := by
  unfold k0_pay10
  refine (rowSum_apply _ rfl r).trans (Finset.sum_congr rfl fun k _ => ?_)
  show ((((k0_pay7 x1 (ix2 r k)).setWidth 32).toInt : ℝ) : EReal) = _
  rw [pay7_apply]
  rfl

/-- Row r's count of labelled lanes. -/
theorem pay11_rowSum (x1 : Vec Ideal S128x4096 .f32) (r : Fin 128) :
    multiReduction (F := Ideal) .add [1] S128 (k0_pay11 x1) 0x00000000#32 reduces_S128x4096_S128 (.inl rfl) rfl (ix1 r)
      = Spec.n1 (fun k => x1 (ix2 r k)) := by
  refine (rowSum_apply _ rfl r).trans (Finset.sum_congr rfl fun k _ => ?_)
  show ((((k0_pay6 x1 (ix2 r k)).setWidth 32).toInt : ℝ) : EReal) = _
  rw [pay6_apply]
  rfl

end Payload

open Payload

/-! ## The four facts the accumulation reads -/

theorem pay3_apply (j : S1x8x128.Idx) : k0_pay3 (F := Ideal) j = 0 := by
  show Ideal.ofBits .f32 0x00000000#32 = 0
  exact Ideal.ofBits_zero_f32

theorem pay4_apply (j : S1x8x128.Idx) : k0_pay4 (F := Ideal) j = 0 := by
  show Ideal.ofBits .f32 0x00000000#32 = 0
  exact Ideal.ofBits_zero_f32

theorem step2_apply (x0 x1 : Vec Ideal S128x4096 .f32) (xo : Vec Ideal S1x8x128 .f32) (j : S1x8x128.Idx) :
    step2 x0 x1 xo j = xo j + Spec.tileBce x0 x1 := by
  show k0_pay1 (k0_pay5 x0 x1) xo j = _
  unfold k0_pay1
  refine (bump_apply _ xo j).trans ?_
  rw [pay5_eq]

theorem step3_apply (x0 x1 : Vec Ideal S128x4096 .f32) (xo : Vec Ideal S1x8x128 .f32) (j : S1x8x128.Idx) :
    step3 x0 x1 xo j = xo j + Spec.tileCross x0 x1 := by
  show k0_pay2 (k0_pay8 x0 x1) (k0_pay9 x0 x1) (k0_pay10 x1) (k0_pay11 x1) xo j = _
  unfold k0_pay2
  refine (bump_apply _ xo j).trans (congrArg (xo j + ·) ?_)
  refine (total_apply _ rfl).trans (Finset.sum_congr rfl fun r _ => ?_)
  -- row r's term: where n0·n1 > 0, sNeg·sPos / max (n0·n1) 1, else 0
  show Scalar.select
      (Ideal.cmp .ogt (k0_pay10 x1 (ix1 r) * multiReduction (F := Ideal) .add [1] S128 (k0_pay11 x1) 0x00000000#32
        reduces_S128x4096_S128 (.inl rfl) rfl (ix1 r)) (Ideal.ofBits .f32 0x00000000#32))
      (Ideal.div (k0_pay8 x0 x1 (ix1 r) * k0_pay9 x0 x1 (ix1 r))
        (max (k0_pay10 x1 (ix1 r) * multiReduction (F := Ideal) .add [1] S128 (k0_pay11 x1) 0x00000000#32
          reduces_S128x4096_S128 (.inl rfl) rfl (ix1 r)) (Ideal.ofBits .f32 0x3F800000#32)))
      (Ideal.ofBits .f32 0x00000000#32) = _
  rw [pay8_apply, pay9_apply, pay10_apply, pay11_rowSum, Ideal.ofBits_zero_f32]
  rfl

end Cert.KernelIdeal.Val

end
-- ==== Proof.KBlocks.lean ====
/-
  The input windows' blocks: at point t both windows stage rows 128·t … 128·t + 127 of their argument array, all 4096 lanes.
-/
import proofs.«159587_j28922309771824_1_alg».proof.Proof.Spec
import proofs.«159587_j28922309771824_1_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ)

/-- The logits and the labels, as the run finds them on core c. -/
abbrev xarr (c : Dev nD) : Spec.Arr := m ((c.tc : Thread nD τ).loc main_arg0)
abbrev yarr (c : Dev nD) : Spec.Arr := m ((c.tc : Thread nD τ).loc main_arg1)

/-- Both windows' index maps send the grid point (c, s) to row block 32·c + s, which is the point's flat number t, and
    to lane block 0. The grid has 64 points; the maps are evaluated at each. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem iblk0_eq (c : Dev nD) (t : Fin cfg0.N) :
    (iblk m c 0 t : Vec Ideal S128x4096 .f32) = Spec.tileOf (xarr m c) t.val (lt_of_lt_of_eq t.isLt N_0) := by
  -- Element (r, k) of the block is element (128·t + r, k) of the logits: a block's coordinate in its array is the block
  -- index times the block size plus the coordinate inside the block; the row block index is t, the lane block index 0.
  funext j
  unfold iblk
  rw [View.read_apply]
  show V m c main_arg0 _ = _
  unfold Spec.tileOf
  refine congrArg (m ((c.tc : Thread nD τ).loc main_arg0)) ?_
  funext a
  apply Fin.ext
  match a with
  | ⟨0, _⟩ =>
    show win0_0.index t 0 * 128 + 1 * (j 0).val = 128 * t.val + (j 0).val
    rw [(idx_in t).1]; omega
  | ⟨1, _⟩ =>
    show win0_0.index t 1 * 4096 + 1 * (j 1).val = (j 1).val
    rw [(idx_in t).2.1]; omega

theorem iblk1_eq (c : Dev nD) (t : Fin cfg0.N) :
    (iblk m c 1 t : Vec Ideal S128x4096 .f32) = Spec.tileOf (yarr m c) t.val (lt_of_lt_of_eq t.isLt N_0) := by
  -- The same rows of the labels.
  funext j
  unfold iblk
  rw [View.read_apply]
  show V m c main_arg1 _ = _
  unfold Spec.tileOf
  refine congrArg (m ((c.tc : Thread nD τ).loc main_arg1)) ?_
  funext a
  apply Fin.ext
  match a with
  | ⟨0, _⟩ =>
    show win0_1.index t 0 * 128 + 1 * (j 0).val = 128 * t.val + (j 0).val
    rw [(idx_in t).2.2.1]; omega
  | ⟨1, _⟩ =>
    show win0_1.index t 1 * 4096 + 1 * (j 1).val = (j 1).val
    rw [(idx_in t).2.2.2]; omega

end Cert.KernelIdeal.Val

end
-- ==== Proof.KAccum.lean ====
/-
  The accumulation: after point 32·q + j (j < 32) every entry of the first output's resident block is the sum of the
  element sums of tiles 32·q … 32·q + j, and of the second's the sum of their row sums — by induction on j.
-/
import proofs.«159587_j28922309771824_1_alg».proof.Proof.KPieces
import proofs.«159587_j28922309771824_1_alg».proof.Proof.KPayload
import proofs.«159587_j28922309771824_1_alg».proof.Proof.KBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ)

/-- What the recursion holds at a point depends on the point alone, not on how the point is written. -/
theorem outsAt0_congr (c : Dev nD) {n n' : ℕ} (e : n = n') (h : n < cfg0.N) (h' : n' < cfg0.N) :
    outsAt0 m c n h = outsAt0 m c n' h' := by
  subst e; rfl

/-- Inside the 64 tiles a point's addend to the element sum is its tile's share. -/
theorem tileBceAt_lt (x y : Spec.Arr) (n : ℕ) (h : n < 64) :
    Spec.tileBceAt x y n = Spec.tileBce (Spec.tileOf x n h) (Spec.tileOf y n h) := by
  unfold Spec.tileBceAt; exact dif_pos h

/-- And its addend to the row sum is its tile's share. -/
theorem tileCrossAt_lt (x y : Spec.Arr) (n : ℕ) (h : n < 64) :
    Spec.tileCrossAt x y n = Spec.tileCross (Spec.tileOf x n h) (Spec.tileOf y n h) := by
  unfold Spec.tileCrossAt; exact dif_pos h

/-- A reset point (t ≡ 0 mod 32) starts both blocks from zero: afterwards every entry is the tile's own share. -/
theorem outs_reset (c : Dev nD) (t : Fin cfg0.N) (h0 : t.val % 32 = 0) (i : S1x8x128.Idx) :
    (outsAt0 m c t.val t.isLt).1 i = Spec.tileBceAt (xarr m c) (yarr m c) t.val
    ∧ (outsAt0 m c t.val t.isLt).2 i = Spec.tileCrossAt (xarr m c) (yarr m c) t.val := by
  rw [outsAt0_A m c t h0]; dsimp only
  rw [tileBceAt_lt _ _ _ (lt_of_lt_of_eq t.isLt N_0), tileCrossAt_lt _ _ _ (lt_of_lt_of_eq t.isLt N_0)]
  constructor
  · refine (congrFun (out_A_2 (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)) i).trans ?_
    rw [step2_apply, pay3_apply, zero_add, iblk0_eq, iblk1_eq]
  · refine (congrFun (out_A_3 (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)) i).trans ?_
    rw [step3_apply, pay4_apply, zero_add, iblk0_eq, iblk1_eq]

/-- Any other point adds the tile's share to what the point before left. -/
theorem outs_step (c : Dev nD) (t : Fin cfg0.N) (h0 : ¬t.val % 32 = 0) (i : S1x8x128.Idx) :
    (outsAt0 m c t.val t.isLt).1 i
        = (outsAt0 m c (t.val - 1) (Nat.lt_of_le_of_lt (Nat.sub_le _ _) t.isLt)).1 i + Spec.tileBceAt (xarr m c) (yarr m c) t.val
    ∧ (outsAt0 m c t.val t.isLt).2 i
        = (outsAt0 m c (t.val - 1) (Nat.lt_of_le_of_lt (Nat.sub_le _ _) t.isLt)).2 i + Spec.tileCrossAt (xarr m c) (yarr m c) t.val := by
  rw [outsAt0_B m c t h0]; dsimp only
  rw [tileBceAt_lt _ _ _ (lt_of_lt_of_eq t.isLt N_0), tileCrossAt_lt _ _ _ (lt_of_lt_of_eq t.isLt N_0)]
  constructor
  · refine (congrFun (out_B_2 (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2) i).trans ?_
    rw [step2_apply, iblk0_eq, iblk1_eq]
  · refine (congrFun (out_B_3 (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2) i).trans ?_
    rw [step3_apply, iblk0_eq, iblk1_eq]

theorem outs_eq (c : Dev nD) (q : ℕ) : ∀ (j : ℕ) (hj : j < 32) (h : 32 * q + j < cfg0.N) (i : S1x8x128.Idx),
    (outsAt0 m c (32 * q + j) h).1 i = ∑ s ∈ Finset.range (j + 1), Spec.tileBceAt (xarr m c) (yarr m c) (32 * q + s)
    ∧ (outsAt0 m c (32 * q + j) h).2 i = ∑ s ∈ Finset.range (j + 1), Spec.tileCrossAt (xarr m c) (yarr m c) (32 * q + s) := by
  -- Induction on j. The point 32·q is a reset point: the sum has the one term s = 0. The point 32·q + (j + 1) is not,
  -- since its remainder mod 32 is j + 1 with 0 < j + 1 < 32: it adds term s = j + 1 to the sum the point before holds.
  intro j
  induction j with
  | zero =>
    intro hj h i
    have h0 : (32 * q + 0) % 32 = 0 := by omega
    have hr := outs_reset m c ⟨32 * q + 0, h⟩ h0 i
    rw [Finset.sum_range_one, Finset.sum_range_one]
    exact hr
  | succ j ih =>
    intro hj h i
    have hne : ¬(32 * q + (j + 1)) % 32 = 0 := by omega
    have hprev : 32 * q + j < cfg0.N := lt_trans (by omega) h
    have hs := outs_step m c ⟨32 * q + (j + 1), h⟩ hne i
    have e : 32 * q + (j + 1) - 1 = 32 * q + j := by omega
    have hi := ih (by omega) hprev i
    rw [outsAt0_congr m c e _ hprev] at hs
    rw [Finset.sum_range_succ _ (j + 1), Finset.sum_range_succ _ (j + 1), ← hi.1, ← hi.2]
    exact hs

end Cert.KernelIdeal.Val

end
-- ==== Proof.KFinal.lean ====
/-
  The two result arrays after the region. Each core's run of 32 points ends with a write-back at its last point, of a
  block every entry of which is the sum over that core's 32 tiles; block q of either [2, 8, 128] array is core q's, so
  entry (q, a, b) of the first array is the sum of the element sums of tiles 32·q … 32·q + 31, and of the second the
  sum of their row sums.
-/
import proofs.«159587_j28922309771824_1_alg».proof.Proof.KAccum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ)

/-- The outputs' printed index maps, decided over the grid: point t writes block (t / 32, 0, 0) of either array. -/
theorem idx_out : ∀ t : Fin cfg0.N,
    win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- The first result array: entry (q, a, b) is the sum of the element sums of tiles 32·q … 32·q + 31. -/
def arr2 (c : Dev nD) : S2x8x128.Idx → EReal :=
  fun i => ∑ s ∈ Finset.range 32, Spec.tileBceAt (xarr m c) (yarr m c) (32 * (i 0).val + s)

/-- The second: the sum of their row sums. -/
def arr3 (c : Dev nD) : S2x8x128.Idx → EReal :=
  fun i => ∑ s ∈ Finset.range 32, Spec.tileCrossAt (xarr m c) (yarr m c) (32 * (i 0).val + s)

/-- What a writing-back point writes to the first array is its block of `arr2`. -/
theorem flushed2_eq (c : Dev nD) (t : Fin cfg0.N) (hf : (cfg0.win 2).flush t = true) :
    (dats m 0 c).flushed 2 t = ((cfg0.win 2).blk t).view.read (Elt Ideal) (arr2 m c) := by
  have hN : t.val < 64 := lt_of_lt_of_eq t.isLt N_0
  have h31 : t.val % 32 = 31 := (flush0_2 t).mp hf
  show (cfg0.win 2).cut (grid0.coords t) ((dats m 0 c).after 2 t) = _
  rw [after0_2]
  funext y
  have hy : (y 0).val < 1 := (y 0).isLt
  have e0 : ((((cfg0.win 2).blk t).view.emb y) 0).val = t.val / 32 := by
    show win0_2.index t (0 : Fin 3) * 1 + 1 * (y 0).val = t.val / 32
    rw [(idx_out t).1]; omega
  show (outsAt0 m c t.val t.isLt).1 y = arr2 m c (((cfg0.win 2).blk t).view.emb y)
  unfold arr2
  rw [e0, outsAt0_congr m c (show t.val = 32 * (t.val / 32) + 31 by omega) t.isLt (lt_of_lt_of_eq (show 32 * (t.val / 32) + 31 < 64 by omega) N_0.symm)]
  exact (outs_eq m c (t.val / 32) 31 (by norm_num) _ y).1

theorem flushed3_eq (c : Dev nD) (t : Fin cfg0.N) (hf : (cfg0.win 3).flush t = true) :
    (dats m 0 c).flushed 3 t = ((cfg0.win 3).blk t).view.read (Elt Ideal) (arr3 m c) := by
  have hN : t.val < 64 := lt_of_lt_of_eq t.isLt N_0
  have h31 : t.val % 32 = 31 := (flush0_3 t).mp hf
  show (cfg0.win 3).cut (grid0.coords t) ((dats m 0 c).after 3 t) = _
  rw [after0_3]
  funext y
  have hy : (y 0).val < 1 := (y 0).isLt
  have e0 : ((((cfg0.win 3).blk t).view.emb y) 0).val = t.val / 32 := by
    show win0_3.index t (0 : Fin 3) * 1 + 1 * (y 0).val = t.val / 32
    rw [(idx_out t).2.2.2.1]; omega
  show (outsAt0 m c t.val t.isLt).2 y = arr3 m c (((cfg0.win 3).blk t).view.emb y)
  unfold arr3
  rw [e0, outsAt0_congr m c (show t.val = 32 * (t.val / 32) + 31 by omega) t.isLt (lt_of_lt_of_eq (show 32 * (t.val / 32) + 31 < 64 by omega) N_0.symm)]
  exact (outs_eq m c (t.val / 32) 31 (by norm_num) _ y).2

/-- An index of the first array is in point t's block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl

theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- The last point of core (i 0)'s run. -/
def lastPt (i : S2x8x128.Idx) : Fin cfg0.N :=
  ⟨32 * (i 0).val + 31, by have h0 : (i 0).val < 2 := (i 0).isLt; rw [show cfg0.N = 64 from N_0]; omega⟩

/-- Every index of the first array is in the block the last point of its core's run writes back. -/
theorem cover2 (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hv : (lastPt i).val = 32 * (i 0).val + 31 := rfl
  refine ⟨lastPt i, (flush0_2 _).mpr (by rw [hv]; omega), ?_⟩
  rw [mem_blk2]
  obtain ⟨e0, e1, e2, -, -, -⟩ := idx_out (lastPt i)
  rw [hv] at e0
  intro a
  match a with
  | ⟨0, _⟩ => show win0_2.index (lastPt i) (0 : Fin 3) * 1 ≤ (i 0).val ∧ (i 0).val < win0_2.index (lastPt i) (0 : Fin 3) * 1 + 1; omega
  | ⟨1, _⟩ => show win0_2.index (lastPt i) (1 : Fin 3) * 8 ≤ (i 1).val ∧ (i 1).val < win0_2.index (lastPt i) (1 : Fin 3) * 8 + 8; omega
  | ⟨2, _⟩ => show win0_2.index (lastPt i) (2 : Fin 3) * 128 ≤ (i 2).val ∧ (i 2).val < win0_2.index (lastPt i) (2 : Fin 3) * 128 + 128; omega

theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  have hv : (lastPt i).val = 32 * (i 0).val + 31 := rfl
  refine ⟨lastPt i, (flush0_3 _).mpr (by rw [hv]; omega), ?_⟩
  rw [mem_blk3]
  obtain ⟨-, -, -, e0, e1, e2⟩ := idx_out (lastPt i)
  rw [hv] at e0
  intro a
  match a with
  | ⟨0, _⟩ => show win0_3.index (lastPt i) (0 : Fin 3) * 1 ≤ (i 0).val ∧ (i 0).val < win0_3.index (lastPt i) (0 : Fin 3) * 1 + 1; omega
  | ⟨1, _⟩ => show win0_3.index (lastPt i) (1 : Fin 3) * 8 ≤ (i 1).val ∧ (i 1).val < win0_3.index (lastPt i) (1 : Fin 3) * 8 + 8; omega
  | ⟨2, _⟩ => show win0_3.index (lastPt i) (2 : Fin 3) * 128 ≤ (i 2).val ∧ (i 2).val < win0_3.index (lastPt i) (2 : Fin 3) * 128 + 128; omega

/-- THE RESULT ARRAYS after the run. -/
theorem final2 (c : Dev nD) : (dats m 0 c).arrAt 2 cfg0.N = arr2 m c :=
  (dats m 0 c).arrAt_eq_of_cover 2 (arr2 m c) (flushed2_eq m c) cover2

theorem final3 (c : Dev nD) : (dats m 0 c).arrAt 3 cfg0.N = arr3 m c :=
  (dats m 0 c).arrAt_eq_of_cover 3 (arr3 m c) (flushed3_eq m c) cover3

end Cert.KernelIdeal.Val

end
-- ==== Proof.Bridge.lean ====
/-
  Regrouping: the sum over the two cores' runs of 32 tiles of the tiles' shares is the sum over all 8192 rows.
  Sums of extended reals commute and associate, so no finiteness is needed.

  Row i of the array is row r of tile n = 32·q + s, with i = 128·(32·q + s) + r; the map (q, s, r) ↦ i is a bijection
  of Fin 2 × Fin 32 × Fin 128 onto Fin 8192 (its inverse reads off i / 4096, i / 128 mod 32 and i mod 128), and a sum over
  a finite type is unchanged by a bijection of its index set.
-/
import proofs.«159587_j28922309771824_1_alg».proof.Proof.Spec
import Mathlib.Algebra.BigOperators.Fin
import Mathlib.Data.Fintype.BigOperators

noncomputable section

open Idealize.ShloMosaic Idealize.ShloMosaic.ValueIdx

namespace Cert.Spec

/-- (core q, step s, row-in-tile r) ↦ array row 128·(32·q + s) + r, a bijection onto the 8192 rows. -/
private def rowEquiv : Fin 2 × Fin 32 × Fin 128 ≃ Fin 8192 where
  toFun p := ⟨128 * (32 * p.1.val + p.2.1.val) + p.2.2.val, by omega⟩
  invFun i := (⟨i.val / 4096, by omega⟩, ⟨i.val / 128 % 32, by omega⟩, ⟨i.val % 128, by omega⟩)
  left_inv p := by
    obtain ⟨q, s, r⟩ := p
    refine Prod.ext (Fin.ext ?_) (Prod.ext (Fin.ext ?_) (Fin.ext ?_))
    · show (128 * (32 * q.val + s.val) + r.val) / 4096 = q.val
      omega
    · show (128 * (32 * q.val + s.val) + r.val) / 128 % 32 = s.val
      omega
    · show (128 * (32 * q.val + s.val) + r.val) % 128 = r.val
      omega
  right_inv i := by
    refine Fin.ext ?_
    show 128 * (32 * (i.val / 4096) + i.val / 128 % 32) + i.val % 128 = i.val
    omega

/-- A sum over all rows, taken core by core, tile by tile, row by row. -/
private theorem sum_rows {M : Type*} [AddCommMonoid M] (g : Fin 8192 → M) :
    ∑ q : Fin 2, ∑ s : Fin 32, ∑ r : Fin 128, g ⟨128 * (32 * q.val + s.val) + r.val, by omega⟩ = ∑ i, g i := by
  rw [← Fintype.sum_equiv rowEquiv (fun p => g (rowEquiv p)) g (fun _ => rfl)]
  rw [Fintype.sum_prod_type]
  refine Finset.sum_congr rfl fun q _ => ?_
  rw [Fintype.sum_prod_type]
  rfl

/-- The regrouping itself: if point n's addend is the sum of g over tile n's 128 rows (for n < 64), then the addends of
    the points 32·q + s, q < 2, s < 32, sum to the sum of g over all rows. -/
private theorem regroup {M : Type*} [AddCommMonoid M] (g : Fin 8192 → M) (T : ℕ → M)
    (hT : ∀ (n : ℕ) (h : n < 64), T n = ∑ r : Fin 128, g ⟨128 * n + r.val, by omega⟩) :
    ∑ q : Fin 2, ∑ s ∈ Finset.range 32, T (32 * q.val + s) = ∑ i, g i := by
  rw [← sum_rows g]
  refine Finset.sum_congr rfl fun q _ => ?_
  rw [Finset.sum_range]
  refine Finset.sum_congr rfl fun s _ => ?_
  exact hT (32 * q.val + s.val) (by omega)

theorem bce_regroup (x y : Arr) :
    ∑ q : Fin 2, ∑ s ∈ Finset.range 32, tileBceAt x y (32 * q.val + s) = bceTotal x y := by
  refine regroup (fun i => ∑ k : Fin 4096, bce (x (ix2 i k)) (y (ix2 i k))) (tileBceAt x y) ?_
  intro n h
  -- tile n's row r is the array's row 128·n + r, by unfolding
  unfold tileBceAt
  rw [dif_pos h]
  rfl

theorem cross_regroup (x y : Arr) :
    ∑ q : Fin 2, ∑ s ∈ Finset.range 32, tileCrossAt x y (32 * q.val + s) = crossTotal x y := by
  refine regroup (fun i => perRow (rowOf x i) (rowOf y i)) (tileCrossAt x y) ?_
  intro n h
  unfold tileCrossAt
  rw [dif_pos h]
  rfl

end Cert.Spec

end
-- ==== Proof.KTail.lean ====
/-
  After the region: the host takes entry (q, 0, 0) of each result array for the two cores q, adds the two, divides the
  first sum by 2^25 and the second by 2^13, and adds the quotients. With the arrays after the region known, and the
  sums over the two runs of 32 tiles regrouped into sums over all rows, the program's result is the loss of its two
  arguments.
-/
import proofs.«159587_j28922309771824_1_alg».proof.Proof.KFinal
import proofs.«159587_j28922309771824_1_alg».proof.Proof.Bridge
import Idealize.ShloMosaic.Lib.IdealHost
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- A sum over the indices of a vector is the sum over its one coordinate. -/
theorem sum_idx1 {n : ℕ} {M : Type*} [AddCommMonoid M] (f : (⟨1, ![n]⟩ : Shape).Idx → M) :
    ∑ i, f i = ∑ q : Fin n, f (ix1 q) :=
  Fintype.sum_equiv ⟨fun i => i 0, fun q => ix1 q, fun i => (eq_ix1 i).symm, fun q => rfl⟩ _ _
    (fun i => congrArg f (eq_ix1 i))

/-- The host's tail reads entry (q, 0, 0) of a [2, 8, 128] array for each core q and adds the two from zero. -/
theorem pickSum (v : S2x8x128.Idx → EReal) (i : S_.Idx) :
    Host.reduceAdd (F := Ideal) (φ := .f32)
      (shapeCast S2 (extractStridedSlice S2x1x1 ![0, 0, 0] v slices_S2x8x128_S2x1x1_0_0_0) shapeCasts_S2x1x1_S2)
      (constant S_ .f32 0x00000000#32) reducesTo_S2_S_d0 h_S_ i = ∑ q : Fin 2, v (ix3 q 0 0) := by
  rw [hostReduceAdd_apply, Ideal.hostReduceAdd_total reducesTo_S2_S_d0 (fun b => b.elim0)]
  show Ideal.ofBits .f32 0x00000000#32 + ∑ j : S2.Idx, _ = _
  rw [Ideal.ofBits_zero_f32, zero_add, sum_idx1]
  refine Finset.sum_congr rfl fun k _ => ?_
  refine (shapeCast_apply _ shapeCasts_S2x1x1_S2 (ix1 k) (ix3 k 0 0) ?_).trans ?_
  · rw [Shape.rowMajor_val_three, Shape.rowMajor_val_one]
    show ((k.val * 1 + 0) * 1 + 0 : ℕ) = k.val
    omega
  · refine extractStridedSlice_apply _ v _ (ix3 k 0 0) (ix3 k 0 0) fun a => ?_
    match a with
    | ⟨0, _⟩ => show k.val = 0 + k.val; omega
    | ⟨1, _⟩ => show (0 : ℕ) = 0 + 0; rfl
    | ⟨2, _⟩ => show (0 : ℕ) = 0 + 0; rfl

/-- THE TAIL: after the host operations that follow the region the result holds the loss of the two arguments. -/
theorem tail_eq (c : Dev nD) :
    Pipeline.afterTail₀ cfgs (dats m) 0 (V0 m) [hostOps1] c main_v9 = fun _ => Spec.loss (xarr m c) (yarr m c) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.tc.devRef main_v0_0) = arr2 m c :=
    (Pipeline.withArrays_arr spec0 launch0.win.arr_inj c _ _ 2).trans (final2 m c)
  have e3 : Pipeline.withArrays (cfgs 0).spec c (V0 m c) (fun w => (dats m 0 c).arrAt w (cfgs 0).N) (Proc.tc.devRef main_v0_1) = arr3 m c :=
    (Pipeline.withArrays_arr spec0 launch0.win.arr_inj c _ _ 3).trans (final3 m c)
  rw [e2, e3]
  funext i
  show Ideal.div (Host.reduceAdd (F := Ideal) (φ := .f32)
        (shapeCast S2 (extractStridedSlice S2x1x1 ![0, 0, 0] (arr2 m c) slices_S2x8x128_S2x1x1_0_0_0) shapeCasts_S2x1x1_S2)
        (constant S_ .f32 0x00000000#32) reducesTo_S2_S_d0 h_S_ i) (Ideal.ofBits .f32 0x4C000000#32)
      + Ideal.div (Host.reduceAdd (F := Ideal) (φ := .f32)
        (shapeCast S2 (extractStridedSlice S2x1x1 ![0, 0, 0] (arr3 m c) slices_S2x8x128_S2x1x1_0_0_0) shapeCasts_S2x1x1_S2)
        (constant S_ .f32 0x00000000#32) reducesTo_S2_S_d0 h_S_ i) (Ideal.ofBits .f32 0x46000000#32)
      = Spec.loss (xarr m c) (yarr m c)
  rw [pickSum, pickSum]
  unfold Spec.loss Spec.c25 Spec.c13
  rw [← Spec.bce_regroup, ← Spec.cross_regroup]
  rfl

/-- The kernel's run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v9) = (fun _ => Spec.loss (xarr m c) (yarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.lean ====
/-
  The certificate of the label-correlation-aware loss kernel against its jnp reference, over the extended reals.

  Both programs compute, of logits x and labels y (f32[8192, 4096]),
    loss x y = (Σ_{i,k} (max x 0 − x·y + log (1 + e^(−|x|)))[i,k]) / 2^25 + (Σ_i perRow x[i,·] y[i,·]) / 2^13,
  perRow the product of the masked exponential sums over the unlabelled and the labelled lanes of a row, divided by
  the product of their counts where that is positive (Proof/Spec.lean). The kernel visits the rows in 64 tiles of 128,
  2 runs of 32 tiles, each run accumulating the tiles' two shares into a resident block that its last point writes
  back; the host adds the two runs and divides (Proof/KPieces … Proof/KTail). The reference sums everything at once,
  and counts the lanes in integers before converting, where the kernel sums 0/1 floats (Proof/RefValue). The two
  agree because a finite sum of extended reals may be regrouped (Proof/Bridge) and both counts are the number of ones;
  no law that needs finiteness is used, so the precondition is never opened.
  The three frames are the generated ones (the reference's is its run with the result dropped); the ideal pass
  rewrote nothing, so the idealization claim is trivial.
-/
import proofs.«159587_j28922309771824_1_alg».proof.Defs
import proofs.«159587_j28922309771824_1_alg».proof.Proof.Gen.Kernel
import proofs.«159587_j28922309771824_1_alg».proof.Proof.Gen.Kernel.Frame
import proofs.«159587_j28922309771824_1_alg».proof.Proof.Gen.KernelIdeal
import proofs.«159587_j28922309771824_1_alg».proof.Proof.Gen.KernelIdeal.Frame
import proofs.«159587_j28922309771824_1_alg».proof.Proof.Gen.ReferenceIdeal
import proofs.«159587_j28922309771824_1_alg».proof.Proof.Gen.Pre_finite_inputs
import proofs.«159587_j28922309771824_1_alg».proof.Proof.RefRunP
import proofs.«159587_j28922309771824_1_alg».proof.Proof.RefValue
import proofs.«159587_j28922309771824_1_alg».proof.Proof.KTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the arguments, the idealized kernel ends with its result at the loss of its
    arguments and the idealized reference with its result at the loss of its own, which are the same arrays. -/
theorem algebraic : Cert.algebraic_KernelIdeal_ReferenceIdeal := by
  intro m ρ m' ρ' _ hagree
  refine ⟨fun c => (fun _ => Cert.Spec.loss (Cert.KernelIdeal.Val.xarr m c) (Cert.KernelIdeal.Val.yarr m c)),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, Cert.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
